-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1 : Shape := ⟨1, ![1]⟩
abbrev S16777216 : Shape := ⟨1, ![16777216]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S1000000 .f32) (main_arg1 : FVec F S1 .f32) (main_arg2 : IVec S16777216 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S1000000 : Shape := ⟨1, ![1000000]⟩
abbrev S1 : Shape := ⟨1, ![1]⟩
abbrev S16777216 : Shape := ⟨1, ![16777216]⟩
abbrev S_ : Shape := ⟨0, ![]⟩
abbrev S16777216x1 : Shape := ⟨2, ![16777216, 1]⟩
abbrev S8x125000 : Shape := ⟨2, ![8, 125000]⟩
abbrev S1x1 : Shape := ⟨2, ![1, 1]⟩
abbrev S8 : Shape := ⟨1, ![8]⟩
abbrev S8x1 : Shape := ⟨2, ![8, 1]⟩

abbrev nBuf : Space → Nat
  | .hbm => 30
  | .vmem => 4
  | .smem => 0
  | _ => 0

abbrev bufTy : (tb : Table) → Fin (tcTables nBuf tb) → BufTy
  | .hbm, ⟨0, _⟩ => ⟨S1000000, .f32⟩
  | .hbm, ⟨1, _⟩ => ⟨S1, .f32⟩
  | .hbm, ⟨2, _⟩ => ⟨S16777216, .i32⟩
  | .hbm, ⟨3, _⟩ => ⟨S_, .f32⟩
  | .hbm, ⟨4, _⟩ => ⟨S1000000, .f32⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S_, .i32⟩
  | .hbm, ⟨9, _⟩ => ⟨S16777216, .i32⟩
  | .hbm, ⟨10, _⟩ => ⟨S16777216, .i32⟩
  | .hbm, ⟨11, _⟩ => ⟨S16777216, .i32⟩
  | .hbm, ⟨12, _⟩ => ⟨S16777216x1, .i32⟩
  | .hbm, ⟨13, _⟩ => ⟨S_, .f32⟩
  | .hbm, ⟨14, _⟩ => ⟨S16777216, .f32⟩
  | .hbm, ⟨15, _⟩ => ⟨S1000000, .f32⟩
  | .hbm, ⟨16, _⟩ => ⟨S8x125000, .f32⟩
  | .hbm, ⟨17, _⟩ => ⟨S8x125000, .f32⟩
  | .hbm, ⟨18, _⟩ => ⟨S1x1, .f32⟩
  | .hbm, ⟨19, _⟩ => ⟨S8x125000, .f32⟩
  | .hbm, ⟨20, _⟩ => ⟨S1000000, .f32⟩
  | .hbm, ⟨21, _⟩ => ⟨S_, .i32⟩
  | .hbm, ⟨22, _⟩ => ⟨S16777216, .i32⟩
  | .hbm, ⟨23, _⟩ => ⟨S16777216, .i1⟩
  | .hbm, ⟨24, _⟩ => ⟨S_, .i32⟩
  | .hbm, ⟨25, _⟩ => ⟨S16777216, .i32⟩
  | .hbm, ⟨26, _⟩ => ⟨S16777216, .i32⟩
  | .hbm, ⟨27, _⟩ => ⟨S16777216, .i32⟩
  | .hbm, ⟨28, _⟩ => ⟨S16777216x1, .i32⟩
  | .hbm, ⟨29, _⟩ => ⟨S16777216, .f32⟩
  | .local _ .vmem, ⟨0, _⟩ => ⟨S8x125000, .f32⟩
  | .local _ .vmem, ⟨1, _⟩ => ⟨S8x125000, .f32⟩
  | .local _ .vmem, ⟨2, _⟩ => ⟨S1x1, .f32⟩
  | .local _ .vmem, ⟨3, _⟩ => ⟨S8x125000, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x125000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x125000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x125000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S1000000 : S_.BroadcastsInDim S1000000 (![] : Fin 0 → Fin S1000000.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S1000000_S8x125000 : S1000000.ShapeCasts S8x125000
  shapeCasts_S1_S1x1 : S1.ShapeCasts S1x1
  inb_S8x125000_S8x125000_0_0 : ∀ a, (![0, 0] : Fin 2 → Nat) a + S8x125000.size a ≤ S8x125000.size a
  h_S8x125000 : 0 < S8x125000.numel
  shapeCasts_S8x125000_S8x125000 : S8x125000.ShapeCasts S8x125000
  reduces_S8x125000_S8 : S8x125000.Reduces [1] S8
  shapeCasts_S8_S8x1 : S8.ShapeCasts S8x1
  reduces_S8x1_S1 : S8x1.Reduces [0] S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8x125000 : S1x1.Broadcasts S8x125000
  shapeCasts_S8x125000_S1000000 : S8x125000.ShapeCasts S1000000
  scatter_S1000000_S16777216x1_S16777216_n_0_0_1_wf : ScatterDims.WF S1000000 S16777216x1 S16777216 [] [0] [0] 1
  gather_S1000000_S16777216x1_S16777216_n_0_n_n_0_1_1_wf : GatherDims.WF S1000000 S16777216x1 S16777216 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x125000.size a ≤ S8x125000.size a
  hwx0_0 : ∀ i : grid0.Coords, EltTy.bits .f32 = 32 ∨ (Rect.block (s := S8x125000) S8x125000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x125000.size a ≤ S8x125000.size a
  hwx0_1 : ∀ i : grid0.Coords, EltTy.bits .f32 = 32 ∨ (Rect.block (s := S8x125000) S8x125000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x125000.size a ≤ S8x125000.size a
  hwx0_3 : ∀ i : grid0.Coords, EltTy.bits .f32 = 32 ∨ (Rect.block (s := S8x125000) S8x125000.size (cc0_transform_3 i) (hinb0_3 i)).WholeWords (EltTy.packing .f32)

variable [Facts₀]

def scatter_S1000000_S16777216x1_S16777216_n_0_0_1 : ScatterDims S1000000 S16777216x1 S16777216 where
  updateWindowDims := []
  insertedWindowDims := [0]
  scatterDimsToOperandDims := [0]
  indexVectorDim := 1
  wf := scatter_S1000000_S16777216x1_S16777216_n_0_0_1_wf
def gather_S1000000_S16777216x1_S16777216_n_0_n_n_0_1_1 : GatherDims S1000000 S16777216x1 S16777216 where
  offsetDims := []
  collapsedSliceDims := [0]
  operandBatchingDims := []
  startIndicesBatchingDims := []
  startIndexMap := [0]
  indexVectorDim := 1
  sliceSizes := ![1]
  wf := gather_S1000000_S16777216x1_S16777216_n_0_n_n_0_1_1_wf

abbrev win0_0 : Pipeline.Window sig grid0 :=
  Pipeline.Window.ofSpec (Memref.whole main_v9) S8x125000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8x125000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8x125000.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000 : Shape := ⟨1, ![1000000]⟩
abbrev S1 : Shape := ⟨1, ![1]⟩
abbrev S16777216 : Shape := ⟨1, ![16777216]⟩
abbrev S_ : Shape := ⟨0, ![]⟩
abbrev S16777216x1 : Shape := ⟨2, ![16777216, 1]⟩

abbrev nBuf : Space → Nat
  | .hbm => 32
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1, .f32⟩
  | .hbm, ⟨2, _⟩ => ⟨S16777216, .i32⟩
  | .hbm, ⟨3, _⟩ => ⟨S_, .f32⟩
  | .hbm, ⟨4, _⟩ => ⟨S1000000, .f32⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S_, .i32⟩
  | .hbm, ⟨9, _⟩ => ⟨S16777216, .i32⟩
  | .hbm, ⟨10, _⟩ => ⟨S16777216, .i32⟩
  | .hbm, ⟨11, _⟩ => ⟨S16777216, .i32⟩
  | .hbm, ⟨12, _⟩ => ⟨S16777216x1, .i32⟩
  | .hbm, ⟨13, _⟩ => ⟨S_, .f32⟩
  | .hbm, ⟨14, _⟩ => ⟨S16777216, .f32⟩
  | .hbm, ⟨15, _⟩ => ⟨S1000000, .f32⟩
  | .hbm, ⟨16, _⟩ => ⟨S1000000, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S_, .i32⟩
  | .hbm, ⟨22, _⟩ => ⟨S16777216, .i32⟩
  | .hbm, ⟨23, _⟩ => ⟨S16777216, .i1⟩
  | .hbm, ⟨24, _⟩ => ⟨S_, .i32⟩
  | .hbm, ⟨25, _⟩ => ⟨S16777216, .i32⟩
  | .hbm, ⟨26, _⟩ => ⟨S16777216, .i32⟩
  | .hbm, ⟨27, _⟩ => ⟨S16777216, .i32⟩
  | .hbm, ⟨28, _⟩ => ⟨S16777216x1, .i32⟩
  | .hbm, ⟨29, _⟩ => ⟨S16777216, .f32⟩
  | .hbm, ⟨30, _⟩ => ⟨S16777216, .f32⟩
  | .hbm, ⟨31, _⟩ => ⟨S16777216, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  reducesTo_S1000000_S_d0 : S1000000.ReducesTo [0] S_
  h_S_ : 0 < S_.numel
  bcast_S_S1 : S_.BroadcastsInDim S1 (![] : Fin 0 → Fin S1.rank)
  bcast_S1_S16777216_0 : S1.BroadcastsInDim S16777216 (![0] : Fin 1 → Fin S16777216.rank)
  scatter_S1000000_S16777216x1_S16777216_n_0_0_1_wf : ScatterDims.WF S1000000 S16777216x1 S16777216 [] [0] [0] 1
  gather_S1000000_S16777216x1_S16777216_n_0_n_n_0_1_1_wf : GatherDims.WF S1000000 S16777216x1 S16777216 [] [0] [] [0] [] 1 ![1]

variable [Facts₀]

def scatter_S1000000_S16777216x1_S16777216_n_0_0_1 : ScatterDims S1000000 S16777216x1 S16777216 where
  updateWindowDims := []
  insertedWindowDims := [0]
  scatterDimsToOperandDims := [0]
  indexVectorDim := 1
  wf := scatter_S1000000_S16777216x1_S16777216_n_0_0_1_wf
def gather_S1000000_S16777216x1_S16777216_n_0_n_n_0_1_1 : GatherDims S1000000 S16777216x1 S16777216 where
  offsetDims := []
  collapsedSliceDims := [0]
  operandBatchingDims := []
  startIndicesBatchingDims := []
  startIndexMap := [0]
  indexVectorDim := 1
  sliceSizes := ![1]
  wf := gather_S1000000_S16777216x1_S16777216_n_0_n_n_0_1_1_wf

class Facts : Prop extends Facts₀ where

variable [Facts]
-- ==== Proof.KernelResult.lean ====
/-
  What the kernel program leaves in its result array, as one function of its three arguments.

  The program first builds, on the host, the index column (a negative landmark index moved up by the table's
  length, the indices laid out as a [16777216 × 1] column) and the presence table (ones scattered into a table of
  zeros at those indices); it reshapes the counts table and the presence table to [8 × 125000] and the
  observation count to [1 × 1]. Its one pallas_call has a grid of one point and every window's block is its
  whole array, so the call's output array ends holding exactly what the body stores: the body's stored table
  of the three reshaped arrays. After the call the host reshapes that table back to [1000000] and gathers it at
  the index column: that gather is the program's result.
-/
import proofs.«424073_j49469433315727_3_alg».proof.Proof.Gen.KernelIdeal.Frame
import Idealize.ShloMosaic.Lib.StableHlo.Run
import Idealize.ShloMosaic.Lib.Pipeline.Value

set_option maxRecDepth 16384

noncomputable section

namespace Cert.KernelIdeal.TableRun

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]

/-! ## The host's values before the call -/

/-- The index column: each landmark index, moved up by 1000000 when negative, as a [16777216 × 1] column. -/
def indexColumn (a2 : IVec S16777216 32) : IVec S16777216x1 32 :=
  broadcastInDim S16777216x1 ![0] bcast_S16777216_S16777216x1_0
    (select (cmpi .slt a2 (broadcastInDim S16777216 ![] bcast_S_S16777216 (constantI S_ 32 0#32)))
      (addi a2 (broadcastInDim S16777216 ![] bcast_S_S16777216 (constantI S_ 32 1000000#32))) a2)

/-- The presence table: ones scattered into zeros at the index column. -/
def presence (a2 : IVec S16777216 32) : FVec F S1000000 .f32 :=
  Host.scatter scatter_S1000000_S16777216x1_S16777216_n_0_0_1 (fun _ b => b)
    (broadcastInDim S1000000 ![] bcast_S_S1000000 (constant S_ .f32 0x00000000#32)) (indexColumn a2)
    (broadcastInDim S16777216 ![] bcast_S_S16777216 (constant S_ .f32 0x3F800000#32))

/-- The table the body stores, of the argument arrays: the body's stored value of the reshaped counts table,
    the reshaped presence table (loaded twice) and the reshaped observation count. -/
def stored (a0 : FVec F S1000000 .f32) (a1 : FVec F S1 .f32) (a2 : IVec S16777216 32) : Vec F S8x125000 .f32 :=
  k0_pay1 (shapeCast S8x125000 a0 shapeCasts_S1000000_S8x125000)
    (shapeCast S8x125000 (presence (F := F) a2) shapeCasts_S1000000_S8x125000)
    (shapeCast S8x125000 (presence (F := F) a2) shapeCasts_S1000000_S8x125000)
    (shapeCast S1x1 a1 shapeCasts_S1_S1x1)

/-- The program's result of its arguments: the stored table, reshaped to [1000000], gathered at the index column. -/
def result (a0 : FVec F S1000000 .f32) (a1 : FVec F S1 .f32) (a2 : IVec S16777216 32) : FVec F S16777216 .f32 :=
  Host.gather gather_S1000000_S16777216x1_S16777216_n_0_n_n_0_1_1
    (shapeCast S1000000 (stored a0 a1 a2) shapeCasts_S8x125000_S1000000) (indexColumn a2)

variable (m : (ℓ : Loc nD τ sig) → Buf (Elt F) ℓ) (ρ : Dev nD → PrngReg)

/-- The call finds the counts table reshaped. -/
theorem entry_counts (c : Dev nD) :
    (V m c main_v9 : S8x125000.Idx → Elt F .f32)
      = shapeCast S8x125000 (m ((c : Thread nD τ).loc main_arg0)) shapeCasts_S1000000_S8x125000 := by
  show StableHlo.after hostOps0 (fun b => m (c, b)) (Proc.devRef .tc main_v9) = _
  after_results
  rfl

/-- The call finds the presence table reshaped. -/
theorem entry_presence (c : Dev nD) :
    (V m c main_v10 : S8x125000.Idx → Elt F .f32)
      = shapeCast S8x125000 (presence (F := F) (m ((c : Thread nD τ).loc main_arg2))) shapeCasts_S1000000_S8x125000 := by
  show StableHlo.after hostOps0 (fun b => m (c, b)) (Proc.devRef .tc main_v10) = _
  after_results
  rfl

/-- The call finds the observation count reshaped. -/
theorem entry_obs (c : Dev nD) :
    (V m c main_v11 : S1x1.Idx → Elt F .f32)
      = shapeCast S1x1 (m ((c : Thread nD τ).loc main_arg1)) shapeCasts_S1_S1x1 := by
  show StableHlo.after hostOps0 (fun b => m (c, b)) (Proc.devRef .tc main_v11) = _
  after_results
  rfl

/-! ## One grid point, whole-array blocks -/

theorem zero_offsets : (![0, 0] : Fin 2 → Nat) = fun _ => 0 := funext fun a => by fin_cases a <;> rfl

/-- Every window's block index is (0, 0) at every point of the grid. -/
theorem block_index_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- So an entry of a block is the same entry of its array: the block starts at the array's origin. -/
theorem emb_counts (t : Fin cfg0.N) (y : S8x125000.Idx) : ((cfg0.win 0).blk t).view.emb y = y := by
  obtain ⟨e0, e1, -⟩ := block_index_zero t
  funext a; apply Fin.ext
  match a with
  | ⟨0, _⟩ => show win0_0.index t (0 : Fin 2) * 8 + 1 * (y 0).val = (y 0).val; omega
  | ⟨1, _⟩ => show win0_0.index t (1 : Fin 2) * 125000 + 1 * (y 1).val = (y 1).val; omega
theorem emb_presence (t : Fin cfg0.N) (y : S8x125000.Idx) : ((cfg0.win 1).blk t).view.emb y = y := by
  obtain ⟨-, -, e0, e1, -⟩ := block_index_zero t
  funext a; apply Fin.ext
  match a with
  | ⟨0, _⟩ => show win0_1.index t (0 : Fin 2) * 8 + 1 * (y 0).val = (y 0).val; omega
  | ⟨1, _⟩ => show win0_1.index t (1 : Fin 2) * 125000 + 1 * (y 1).val = (y 1).val; omega
theorem emb_obs (t : Fin cfg0.N) (y : S1x1.Idx) : ((cfg0.win 2).blk t).view.emb y = y := by
  obtain ⟨-, -, -, -, e0, e1, -⟩ := block_index_zero t
  funext a; apply Fin.ext
  match a with
  | ⟨0, _⟩ => show win0_2.index t (0 : Fin 2) * 1 + 1 * (y 0).val = (y 0).val; omega
  | ⟨1, _⟩ => show win0_2.index t (1 : Fin 2) * 1 + 1 * (y 1).val = (y 1).val; omega
theorem emb_out (t : Fin cfg0.N) (y : S8x125000.Idx) : ((cfg0.win 3).blk t).view.emb y = y := by
  obtain ⟨-, -, -, -, -, -, e0, e1⟩ := block_index_zero t
  funext a; apply Fin.ext
  match a with
  | ⟨0, _⟩ => show win0_3.index t (0 : Fin 2) * 8 + 1 * (y 0).val = (y 0).val; omega
  | ⟨1, _⟩ => show win0_3.index t (1 : Fin 2) * 125000 + 1 * (y 1).val = (y 1).val; omega

/-- Reading a window's block of any array contents gives the contents back: the block is the whole array.
    The fact is about positions only, so it holds whatever the array holds. -/
theorem read_counts_block (t : Fin cfg0.N) (X : S8x125000.Idx → Elt F .f32) :
    ((cfg0.win 0).blk t).view.read (Elt F) X = X := by
  funext y
  show X (((cfg0.win 0).blk t).view.emb y) = X y
  rw [emb_counts]
theorem read_presence_block (t : Fin cfg0.N) (X : S8x125000.Idx → Elt F .f32) :
    ((cfg0.win 1).blk t).view.read (Elt F) X = X := by
  funext y
  show X (((cfg0.win 1).blk t).view.emb y) = X y
  rw [emb_presence]
theorem read_obs_block (t : Fin cfg0.N) (X : S1x1.Idx → Elt F .f32) :
    ((cfg0.win 2).blk t).view.read (Elt F) X = X := by
  funext y
  show X (((cfg0.win 2).blk t).view.emb y) = X y
  rw [emb_obs]

/-- Each input window's block at a point is its whole array as the call finds it. -/
theorem block_counts (c : Dev nD) (t : Fin cfg0.N) : iblk m c 0 t = V m c main_v9 :=
  read_counts_block t (V m c main_v9)
theorem block_presence (c : Dev nD) (t : Fin cfg0.N) : iblk m c 1 t = V m c main_v10 :=
  read_presence_block t (V m c main_v10)
theorem block_obs (c : Dev nD) (t : Fin cfg0.N) : iblk m c 2 t = V m c main_v11 :=
  read_obs_block t (V m c main_v11)

/-! ## The call's output array -/

/-- The stored table of the arrays as the call finds them is the stored table of the arguments. -/
theorem stored_entry (c : Dev nD) :
    k0_pay1 (V m c main_v9) (V m c main_v10) (V m c main_v10) (V m c main_v11)
      = stored (m ((c : Thread nD τ).loc main_arg0)) (m ((c : Thread nD τ).loc main_arg1)) (m ((c : Thread nD τ).loc main_arg2)) := by
  unfold stored
  rw [entry_counts m c, entry_presence m c, entry_obs m c]

/-- What a point writes back is the block of the stored table: the body's one store covers its buffer, and
    its loads read the input blocks whole. -/
theorem flushed_eq (c : Dev nD) (t : Fin cfg0.N) :
    (dats m 0 c).flushed 3 t = ((cfg0.win 3).blk t).view.read (Elt F)
      (stored (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero zero_offsets]
  simp only [View.ld_unit_zero (S := S8x125000) zero_offsets, View.ld_unit_zero (S := S1x1) zero_offsets]
  rw [block_counts m c t, block_presence m c t, block_obs m c t, stored_entry m c]
  funext j
  show stored (m ((c : Thread nD τ).loc main_arg0)) (m ((c : Thread nD τ).loc main_arg1)) (m ((c : Thread nD τ).loc main_arg2)) j
    = stored (m ((c : Thread nD τ).loc main_arg0)) (m ((c : Thread nD τ).loc main_arg1)) (m ((c : Thread nD τ).loc main_arg2))
        (((cfg0.win 3).blk t).view.emb j)
  rw [emb_out]

/-- An index of the output array is in a point's block iff each coordinate is in the block's range. -/
theorem mem_block_out (t : Fin cfg0.N) (i : S8x125000.Idx) :
    i ∈ ((cfg0.win 3).blk t).view.set ↔ ∀ a : Fin 2, win0_3.index t a * S8x125000.size a ≤ (i a).val
      ∧ (i a).val < win0_3.index t a * S8x125000.size a + S8x125000.size a := by
  show i ∈ ((View.whole main_v12).slice (win0_3.rect t)).set ↔ _
  rw [View.set_slice_whole, Rect.mem_set_unit]
  exact Iff.rfl

/-- The one block covers the output array. -/
theorem covered (i : S8x125000.Idx) :
    ∃ t : Fin cfg0.N, (cfg0.win 3).flush t = true ∧ i ∈ ((cfg0.win 3).blk t).view.set := by
  refine ⟨t0_0, flush0_3 t0_0, ?_⟩
  obtain ⟨-, -, -, -, -, -, e0, e1⟩ := block_index_zero t0_0
  rw [mem_block_out]
  intro a
  match a with
  | ⟨0, _⟩ =>
    show win0_3.index t0_0 (0 : Fin 2) * 8 ≤ (i 0).val ∧ (i 0).val < win0_3.index t0_0 (0 : Fin 2) * 8 + 8
    have hi : (i 0).val < 8 := (i 0).isLt
    omega
  | ⟨1, _⟩ =>
    show win0_3.index t0_0 (1 : Fin 2) * 125000 ≤ (i 1).val ∧ (i 1).val < win0_3.index t0_0 (1 : Fin 2) * 125000 + 125000
    have hi : (i 1).val < 125000 := (i 1).isLt
    omega

/-- The output array after the call is the stored table of the arguments. -/
theorem output_array (c : Dev nD) :
    (dats m 0 c).arrAt 3 cfg0.N
      = stored (m ((c : Thread nD τ).loc main_arg0)) (m ((c : Thread nD τ).loc main_arg1)) (m ((c : Thread nD τ).loc main_arg2)) :=
  (dats m 0 c).arrAt_eq_of_cover 3 _ (fun t _ => flushed_eq m c t) covered

/-! ## The host's lines after the call, and the run -/

/-- The program's result buffer after the lines that follow the call: the result of the arguments. The reshape
    reads the call's output array, the index column is rebuilt from the landmark indices, which the call does
    not touch. -/
theorem tail_result (c : Dev nD) :
    Pipeline.afterTail₀ cfgs (dats m) 0 (V0 m) [hostOps1] c main_v20
      = result (m ((c : Thread nD τ).loc main_arg0)) (m ((c : Thread nD τ).loc main_arg1)) (m ((c : Thread nD τ).loc main_arg2)) := by
  unfold Pipeline.afterTail₀
  show StableHlo.after hostOps1 _ (Proc.devRef .tc main_v20) = _
  after_results
  have hout : Pipeline.withArrays (cfgs 0).spec c (V0 m c) (fun w => (dats m 0 c).arrAt w (cfgs 0).N) (Proc.devRef .tc main_v12)
      = stored (m ((c : Thread nD τ).loc main_arg0)) (m ((c : Thread nD τ).loc main_arg1)) (m ((c : Thread nD τ).loc main_arg2)) :=
    (Pipeline.withArrays_arr spec0 launch0.win.arr_inj c _ _ 3).trans (output_array m c)
  have hidx : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [hout, hidx]
  rfl

/-- THE RUN: every weakly fair execution of the kernel program terminates with its result buffer at the result
    of the arguments, the arguments unchanged. -/
theorem run : θ_run defs (onTc (τ := τ) (main (F := F))) ⟨m, fun _ => 0, ρ⟩ fun r => ∀ c : Dev nD,
      r.2.mem ((c : Thread nD τ).loc main_v20)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v20 (Pipeline.mem_restRefs_of main_v20 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.TableRun

end
-- ==== Proof.RefResult.lean ====
/-
  What the reference program leaves in its result buffer, as one function of its three arguments.

  The reference builds the same index column and the same presence table as the kernel program, adds the
  presence table to the counts table, gathers the sum at the index column, and divides every gathered entry by
  one number: the observation count plus the presence table's total, taken in one host reduction.
-/
import proofs.«424073_j49469433315727_3_alg».proof.Proof.Gen.ReferenceIdeal.Run

noncomputable section

namespace Cert.ReferenceIdeal.Landmark

open Cert.ReferenceIdeal Cert.ReferenceIdeal.Gen Idealize.ShloMosaic Idealize.ShloMosaic.TcCoe Idealize.SL.Sem

variable {F : FTy → Type} [FloatOps F]

/-- The index column: each landmark index, moved up by 1000000 when negative, as a [16777216 × 1] column. -/
def indexColumn (a2 : IVec S16777216 32) : IVec S16777216x1 32 :=
  broadcastInDim S16777216x1 ![0] bcast_S16777216_S16777216x1_0
    (select (cmpi .slt a2 (broadcastInDim S16777216 ![] bcast_S_S16777216 (constantI S_ 32 0#32)))
      (addi a2 (broadcastInDim S16777216 ![] bcast_S_S16777216 (constantI S_ 32 1000000#32))) a2)

/-- The presence table: ones scattered into zeros at the index column. -/
def presence (a2 : IVec S16777216 32) : FVec F S1000000 .f32 :=
  Host.scatter scatter_S1000000_S16777216x1_S16777216_n_0_0_1 (fun _ b => b)
    (broadcastInDim S1000000 ![] bcast_S_S1000000 (constant S_ .f32 0x00000000#32)) (indexColumn a2)
    (broadcastInDim S16777216 ![] bcast_S_S16777216 (constant S_ .f32 0x3F800000#32))

/-- The updated total, as a one-entry vector: the observation count plus the presence table's total. -/
def total (a1 : FVec F S1 .f32) (a2 : IVec S16777216 32) : FVec F S1 .f32 :=
  addf a1 (broadcastInDim S1 ![] bcast_S_S1
    (Host.reduceAdd (presence (F := F) a2) (constant S_ .f32 0x00000000#32) reducesTo_S1000000_S_d0 h_S_))

/-- The reference's result of its arguments: the updated counts gathered at the index column, each over the
    updated total. -/
def result (a0 : FVec F S1000000 .f32) (a1 : FVec F S1 .f32) (a2 : IVec S16777216 32) : FVec F S16777216 .f32 :=
  Host.divf (Host.gather gather_S1000000_S16777216x1_S16777216_n_0_n_n_0_1_1 (addf a0 (presence (F := F) a2)) (indexColumn a2))
    (broadcastInDim S16777216 ![0] bcast_S1_S16777216_0 (total a1 a2))

/-- THE RUN: every weakly fair execution of the reference terminates with its result buffer at the result of the
    arguments, the arguments unchanged (the generated run, its term named). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.ReferenceIdeal.Landmark

end
-- ==== Proof.LibTableTotal.lean ====
/-
  Totals of a table at the ideal instance, however the table is laid out and however the sum is staged.

  A float sum at the ideal instance is an exact sum of extended reals, and addition of extended reals is
  commutative and associative, so a total does not depend on the order or grouping of its terms:
  * summing a reshaped array is summing the array (a reshape is a bijection of the index sets);
  * summing a one-stage reduction over all its reduced indices is the total (the reduced index of a source
    index partitions the source indices into fibres);
  * hence a reduction along some axes, reshaped, then reduced into a shape of unit axes, is the total;
  * the host's one-stage reduction from the zero word into a shape of unit axes is the total as well.
  No finiteness is used anywhere.
-/
import Idealize.ShloMosaic.PureOps.Ideal
import Idealize.ShloMosaic.PureOps.Ideal.Laws
import Idealize.ShloMosaic.Lib.Pipeline.Value

noncomputable section

namespace Cert.TableTotal

open Idealize.ShloMosaic

/-- Summing a reshaped array is summing the array: the reshape reads the source through a bijection of indices. -/
theorem sum_shapeCast {s t : Shape} {M : Type} [AddCommMonoid M] (x : s.Idx → M) (h : s.ShapeCasts t) :
    ∑ j : t.Idx, shapeCast t x h j = ∑ k : s.Idx, x k :=
  Equiv.sum_comp (Shape.reshapeEquiv h) x

/-- The sum, over every reduced index, of a one-stage reduction is the total over the source: each source
    index lies in exactly one fibre of the map to reduced indices. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- A sum staged in two: reduce along some axes, reshape the partial sums, reduce those into a shape whose
    axes all have extent one. At that shape's index the result is the total over the source. -/
theorem two_stage_total {s s₁ s₂ t : Shape} {φ : FTy} {ax₁ : List (Fin s.rank)} {ax₂ : List (Fin s₂.rank)}
    (q : FVec Ideal s φ) (acc : BitVec φ.bits) (h₁ : s.Reduces ax₁ s₁) (hc : s₁.ShapeCasts s₂)
    (h₂ : s₂.Reduces ax₂ t) (ht : ∀ b, t.size b = 1) (hφ : FKind.Formats φ) (hacc : acc = FKind.add.neutral φ hφ)
    (j : t.Idx) :
    multiReduction .add ax₂ t (shapeCast s₂ (multiReduction .add ax₁ s₁ q acc h₁ hφ hacc) hc) acc h₂ hφ hacc j
      = ∑ i : s.Idx, q i := by
  rw [Ideal.multiReduction_add_total _ _ h₂ ht hφ hacc j, sum_shapeCast]
  exact sum_reduceAdd h₁ q

/-- The same total read through a further reshape of the unit-shaped result. -/
theorem two_stage_total_cast {s s₁ s₂ t t' : Shape} {φ : FTy} {ax₁ : List (Fin s.rank)} {ax₂ : List (Fin s₂.rank)}
    (q : FVec Ideal s φ) (acc : BitVec φ.bits) (h₁ : s.Reduces ax₁ s₁) (hc : s₁.ShapeCasts s₂)
    (h₂ : s₂.Reduces ax₂ t) (ht : ∀ b, t.size b = 1) (hφ : FKind.Formats φ) (hacc : acc = FKind.add.neutral φ hφ)
    (hc' : t.ShapeCasts t') (k : t'.Idx) :
    shapeCast t' (multiReduction .add ax₂ t (shapeCast s₂ (multiReduction .add ax₁ s₁ q acc h₁ hφ hacc) hc) acc h₂ hφ hacc) hc' k
      = ∑ i : s.Idx, q i :=
  two_stage_total q acc h₁ hc h₂ ht hφ hacc _

/-- A shape whose axes all have extent one has one index. -/
theorem idx_eq_of_unit {s : Shape} (hs : ∀ a, s.size a = 1) (k z : s.Idx) : k = z :=
  funext fun a => Fin.ext (by have := (k a).isLt; have := (z a).isLt; have := hs a; omega)

/-- The host's one-stage sum from the zero word into a shape of unit axes is the total over the source. -/
theorem host_total {s t u : Shape} {axes : List (Fin s.rank)} (x : FVec Ideal s .f32) (h' : s.ReducesTo axes t)
    (ht : ∀ b, t.size b = 1) (hu : 0 < u.numel) (j : t.Idx) :
    Host.reduceAdd x (constant (F := Ideal) u .f32 0x00000000#32) h' hu j = ∑ i : s.Idx, x i := by
  show Ideal.hostReduceAdd h' x (Ideal.ofBits .f32 0x00000000#32) j = _
  rw [Ideal.hostReduceAdd_total h' ht, Ideal.ofBits_zero_f32, zero_add]

end Cert.TableTotal

end
-- ==== Proof.ScaledTable.lean ====
/-
  The kernel body's stored value, read at one entry, at the ideal instance.

  The body loads the counts table `x0`, the presence table `x1` (twice) and the one-entry observation count
  `x2`, and stores, at every entry `i` of the [8 × 125000] table,

      (x0 i + x1 i) / (x2 + Σ_j x1 j),

  where the divisor is one number for the whole table: the observation count plus the presence table's total.
  The body totals the presence table in two stages (along each row, then down the column of row sums); over the
  extended reals that is the total over all entries, because the sum is exact and addition is commutative and
  associative. The reshapes of a value to its own shape are the identity, and the broadcast of the one-entry
  divisor reads its one entry wherever it is read.
-/
import proofs.«424073_j49469433315727_3_alg».proof.Proof.Gen.KernelIdeal.Skeleton
import proofs.«424073_j49469433315727_3_alg».proof.Proof.LibTableTotal

noncomputable section

namespace Cert.KernelIdeal.ScaledTable

open Cert.KernelIdeal Cert.KernelIdeal.Gen Idealize.ShloMosaic

/-- Entry `i` of the stored table: the updated count at `i` over the updated total; `z` is the observation
    count's one index, however it is spelt. -/
theorem stored_apply (x0 x1 : Vec Ideal S8x125000 .f32) (x2 : Vec Ideal S1x1 .f32) (i : S8x125000.Idx) (z : S1x1.Idx) :
    k0_pay1 (F := Ideal) x0 x1 x1 x2 i = Ideal.div (x0 i + x1 i) (x2 z + ∑ j : S8x125000.Idx, x1 j) := by
  unfold k0_pay1
  simp only [shapeCast_self, divf, addf, broadcastTo, Ideal.divf_def, Ideal.addf_def]
  refine congrArg (Ideal.div (x0 i + x1 i)) ?_
  refine congrArg₂ (· + ·) (congrArg x2 (Cert.TableTotal.idx_eq_of_unit (by decide) _ z)) ?_
  exact Cert.TableTotal.two_stage_total_cast x1 _ _ _ _ (by decide) _ _ _ _

end Cert.KernelIdeal.ScaledTable

end
-- ==== Proof.Bridge.lean ====
/-
  The two programs compute one function of their arguments, at the ideal instance.

  Write `p` for the presence table, `k n` for the table position the gather reads for output position `n`
  (the gather is a re-indexing of its table: output `n` IS the table's entry at `k n`, whatever the table
  holds), and `T = obs + Σ_j p j` for the updated total. Then

    kernel    n  ↦  (the stored table, reshaped back) at k n  =  (counts (k n) + p (k n)) / T
    reference n  ↦  (counts + p) at k n, over T               =  (counts (k n) + p (k n)) / T.

  The kernel divides the table and then gathers, the reference gathers and then divides; a pointwise division
  by one number commutes with a re-indexing. Reshaping the tables to [8 × 125000] and back is the identity, and
  the total of the reshaped presence table is the total of the presence table. Both programs build the same index
  column and the same presence table from the landmark indices, by the same host operations. No finiteness of the
  inputs is used: the laws are the commutativity and associativity of addition on the extended reals only.
-/
import proofs.«424073_j49469433315727_3_alg».proof.Proof.KernelResult
import proofs.«424073_j49469433315727_3_alg».proof.Proof.ScaledTable
import proofs.«424073_j49469433315727_3_alg».proof.Proof.RefResult
import proofs.«424073_j49469433315727_3_alg».proof.Proof.LibTableTotal

noncomputable section

namespace Cert.Bridge

open Idealize.ShloMosaic

/-- Both programs build the same index column. -/
theorem indexColumn_eq (a2 : IVec Cert.KernelIdeal.S16777216 32) :
    Cert.KernelIdeal.TableRun.indexColumn a2 = Cert.ReferenceIdeal.Landmark.indexColumn a2 := rfl

/-- Both programs build the same presence table. -/
theorem presence_eq (a2 : IVec Cert.KernelIdeal.S16777216 32) :
    Cert.KernelIdeal.TableRun.presence (F := Ideal) a2 = Cert.ReferenceIdeal.Landmark.presence (F := Ideal) a2 := rfl

/-- An entry of the kernel's stored table, reshaped back to [1000000]: the updated count there over the updated
    total. Reshaping to [8 × 125000] and back reads the same entry, and the reshaped presence table has the
    presence table's total. -/
theorem kernel_entry (a0 : FVec Ideal Cert.KernelIdeal.S1000000 .f32) (a1 : FVec Ideal Cert.KernelIdeal.S1 .f32)
    (a2 : IVec Cert.KernelIdeal.S16777216 32) (h : Cert.KernelIdeal.S8x125000.ShapeCasts Cert.KernelIdeal.S1000000)
    (i : Cert.KernelIdeal.S1000000.Idx) (z : Cert.KernelIdeal.S1.Idx) :
    shapeCast Cert.KernelIdeal.S1000000 (Cert.KernelIdeal.TableRun.stored (F := Ideal) a0 a1 a2) h i
      = Ideal.div (a0 i + Cert.KernelIdeal.TableRun.presence (F := Ideal) a2 i)
          (a1 z + ∑ j : Cert.KernelIdeal.S1000000.Idx, Cert.KernelIdeal.TableRun.presence (F := Ideal) a2 j) := by
  show Cert.KernelIdeal.TableRun.stored (F := Ideal) a0 a1 a2 (Shape.reshapeEquiv h i) = _
  unfold Cert.KernelIdeal.TableRun.stored
  refine (Cert.KernelIdeal.ScaledTable.stored_apply _ _ _ _ (Shape.Idx.first (by decide))).trans ?_
  refine congrArg₂ Ideal.div
    (congrArg₂ (· + ·) (congrFun (shapeCast_shapeCast a0 _ h) i)
      (congrFun (shapeCast_shapeCast (Cert.KernelIdeal.TableRun.presence (F := Ideal) a2) _ h) i))
    (congrArg₂ (· + ·) (congrArg a1 (Cert.TableTotal.idx_eq_of_unit (by decide) _ z))
      (Cert.TableTotal.sum_shapeCast _ _))

/-- An entry of the reference's result: the updated count at the gathered position over the updated total. -/
theorem reference_entry (a0 : FVec Ideal Cert.ReferenceIdeal.S1000000 .f32) (a1 : FVec Ideal Cert.ReferenceIdeal.S1 .f32)
    (a2 : IVec Cert.ReferenceIdeal.S16777216 32) (n : Cert.ReferenceIdeal.S16777216.Idx) (z : Cert.ReferenceIdeal.S1.Idx) :
    Cert.ReferenceIdeal.Landmark.result (F := Ideal) a0 a1 a2 n
      = Ideal.div
          (a0 (Cert.ReferenceIdeal.gather_S1000000_S16777216x1_S16777216_n_0_n_n_0_1_1.operandIdx n (Cert.ReferenceIdeal.Landmark.indexColumn a2))
            + Cert.ReferenceIdeal.Landmark.presence (F := Ideal) a2
                (Cert.ReferenceIdeal.gather_S1000000_S16777216x1_S16777216_n_0_n_n_0_1_1.operandIdx n (Cert.ReferenceIdeal.Landmark.indexColumn a2)))
          (a1 z + ∑ j : Cert.ReferenceIdeal.S1000000.Idx, Cert.ReferenceIdeal.Landmark.presence (F := Ideal) a2 j) := by
  unfold Cert.ReferenceIdeal.Landmark.result Cert.ReferenceIdeal.Landmark.total
  simp only [Host.divf, Host.gather, addf, broadcastInDim, Ideal.hostDivf_def, Ideal.addf_def]
  refine congrArg₂ Ideal.div rfl
    (congrArg₂ (· + ·) (congrArg a1 (Cert.TableTotal.idx_eq_of_unit (by decide) _ z))
      (Cert.TableTotal.host_total _ _ (fun b => b.elim0) _ _))

/-- THE BRIDGE: at the ideal instance the kernel program's result and the reference's are one function of the
    arguments. -/
theorem result_eq (a0 : FVec Ideal Cert.KernelIdeal.S1000000 .f32) (a1 : FVec Ideal Cert.KernelIdeal.S1 .f32)
    (a2 : IVec Cert.KernelIdeal.S16777216 32) :
    Cert.KernelIdeal.TableRun.result (F := Ideal) a0 a1 a2 = Cert.ReferenceIdeal.Landmark.result (F := Ideal) a0 a1 a2 := by
  funext n
  refine Eq.trans ?_ (reference_entry a0 a1 a2 n (Shape.Idx.first (by decide))).symm
  rw [← presence_eq, ← indexColumn_eq]
  exact kernel_entry a0 a1 a2 _ _ _

end Cert.Bridge

end
-- ==== Proof.lean ====
/-
  The landmark-probability update: a kernel that normalises the table before gathering, against a reference
  that gathers before normalising.

  From counts[1000000], obs[1] and 16777216 landmark indices, both programs form the presence table p (ones
  scattered into zeros at the indices) and return, at output position n,

      (counts (k n) + p (k n)) / (obs + Σ_j p j),

  where k n is the table position the gather reads for n. The kernel's one pallas_call (one grid point, every
  block a whole array) divides the whole [8 × 125000]-reshaped table by the updated total and the host then
  gathers the quotients; the reference gathers the updated counts and divides each by the updated total.
  The gather is a re-indexing of its table, so it commutes with a division by one number; the reshapes are
  bijections of the index sets; and the kernel's two-stage total (rows, then the column of row sums) is the
  reference's one-stage total, the sums being exact and addition commutative and associative on the extended
  reals. The precondition is never opened: no step needs finiteness.

  Modules: LibTableTotal (totals under reshapes and staged reductions), ScaledTable (the body's stored value at
  an entry), KernelResult (the kernel program's run, its result named), RefResult (the reference's run, its
  result named), Bridge (the two results are one function). The word-level kernel only needs its frame.
-/
import proofs.«424073_j49469433315727_3_alg».proof.Defs
import proofs.«424073_j49469433315727_3_alg».proof.Proof.Gen.Kernel
import proofs.«424073_j49469433315727_3_alg».proof.Proof.Gen.Kernel.Skeleton
import proofs.«424073_j49469433315727_3_alg».proof.Proof.Gen.Kernel.Launch
import proofs.«424073_j49469433315727_3_alg».proof.Proof.Gen.Kernel.Points
import proofs.«424073_j49469433315727_3_alg».proof.Proof.Gen.Kernel.Frame
import proofs.«424073_j49469433315727_3_alg».proof.Proof.Gen.KernelIdeal
import proofs.«424073_j49469433315727_3_alg».proof.Proof.Gen.KernelIdeal.Skeleton
import proofs.«424073_j49469433315727_3_alg».proof.Proof.Gen.KernelIdeal.Launch
import proofs.«424073_j49469433315727_3_alg».proof.Proof.Gen.KernelIdeal.Points
import proofs.«424073_j49469433315727_3_alg».proof.Proof.Gen.KernelIdeal.Frame
import proofs.«424073_j49469433315727_3_alg».proof.Proof.Gen.ReferenceIdeal
import proofs.«424073_j49469433315727_3_alg».proof.Proof.Gen.Pre_finite_inputs
import proofs.«424073_j49469433315727_3_alg».proof.Proof.KernelResult
import proofs.«424073_j49469433315727_3_alg».proof.Proof.RefResult
import proofs.«424073_j49469433315727_3_alg».proof.Proof.Bridge
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference runs and leaves its arguments as they were: its run, with the result forgotten. -/
theorem frame_reference_ideal : Cert.frame_ReferenceIdeal := fun m ρ _ =>
  (θ_run Cert.ReferenceIdeal.defs _ _).mono (fun _ h c => (h c).2) (Cert.ReferenceIdeal.Landmark.run (F := Ideal) m ρ)

/-- Reading the kernel program over the extended reals rewrote no operation. -/
theorem preserves : Cert.preserves_Kernel_KernelIdeal := trivial

/-- From memories agreeing on the arguments both programs end with the same result: the kernel's run ends at
    its result of the arguments, the reference's at its own, and the two are one function. -/
theorem algebraic : Cert.algebraic_KernelIdeal_ReferenceIdeal := by
  intro m ρ m' ρ' _ hagree
  refine ⟨fun c => Cert.KernelIdeal.TableRun.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.TableRun.run (F := Ideal) m ρ, ?_⟩
  refine (θ_run Cert.ReferenceIdeal.defs _ _).mono (fun _ h c => ⟨(h c).1.trans ?_, (h c).2⟩)
    (Cert.ReferenceIdeal.Landmark.run (F := Ideal) m' ρ')
  rw [(hagree c).1, (hagree c).2.1, (hagree c).2.2]
  exact (Cert.Bridge.result_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
